-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32 : Shape := ⟨1, ![32]⟩
abbrev S32x512x512 : Shape := ⟨3, ![32, 512, 512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_

variable [Facts]

def fn {F : FTy → Type} [FloatOps F] (main_arg0 : FVec F S32x4096x512 .f32) (main_arg1 : IVec S32 32) (main_arg2 : FVec F S32x512x512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S32x512x512 .f32 := Host.absf main_arg2
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x4096x512 : Shape := ⟨3, ![32, 4096, 512]⟩
abbrev S32 : Shape := ⟨1, ![32]⟩
abbrev S32x512x512 : Shape := ⟨3, ![32, 512, 512]⟩
abbrev S1x2048x512 : Shape := ⟨3, ![1, 2048, 512]⟩
abbrev S1x512x512 : Shape := ⟨3, ![1, 512, 512]⟩
abbrev S1 : Shape := ⟨1, ![1]⟩
abbrev S2048x1 : Shape := ⟨2, ![2048, 1]⟩
abbrev S2048x512 : Shape := ⟨2, ![2048, 512]⟩
abbrev S512x512 : Shape := ⟨2, ![512, 512]⟩

abbrev nBuf : Space → Nat
  | .hbm => 3
  | .vmem => 6
  | .smem => 1
  | _ => 0

abbrev bufTy : (tb : Table) → Fin (tcTables nBuf tb) → BufTy
  | .hbm, ⟨0, _⟩ => ⟨S32x4096x512, .f32⟩
  | .hbm, ⟨1, _⟩ => ⟨S32x512x512, .f32⟩
  | .hbm, ⟨2, _⟩ => ⟨S32x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S1x2048x512, .f32⟩
  | .local _ .vmem, ⟨5, _⟩ => ⟨S1x2048x512, .f32⟩
  | .local _ .smem, ⟨0, _⟩ => ⟨S32, .i32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  numel1_S1 : S1.numel = 1
  iota_S2048x1_d0_w32 : S2048x1.Iotas .tc 32 [0]
  natLt_1_32 : 1 < 32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S2048x1_S2048x512 : S2048x1.Broadcasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x4096x512.size a
  hwx0_0 : ∀ i : grid0.Coords, EltTy.bits .f32 = 32 ∨ (Rect.block (s := S32x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S32x4096x512.size a
  hwx0_2 : ∀ i : grid0.Coords, EltTy.bits .f32 = 32 ∨ (Rect.block (s := S32x4096x512) S1x2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev spec0_0 : Pipeline.WinSpec sig grid0.rank :=
  Pipeline.WinSpec.ofSpec (Memref.whole main_arg0) S1x2048x512.size reads0_0 false false 2 stage0_0 sem0_0 nbuf0_0 hstage0_0

abbrev spec0_1 : Pipeline.WinSpec sig grid0.rank :=
  Pipeline.WinSpec.ofSpec (Memref.whole main_arg2) S1x512x512.size reads0_1 false false 2 stage0_1 sem0_1 nbuf0_1 hstage0_1

abbrev spec0_2 : Pipeline.WinSpec sig grid0.rank :=
  Pipeline.WinSpec.ofSpec (Memref.whole main_v0) S1x2048x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x4096x512 : Shape := ⟨3, ![32, 4096, 512]⟩
abbrev S32 : Shape := ⟨1, ![32]⟩
abbrev S32x512x512 : Shape := ⟨3, ![32, 512, 512]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S32x4096x1 : Shape := ⟨3, ![32, 4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32, .i32⟩
  | .hbm, ⟨2, _⟩ => ⟨S32x512x512, .f32⟩
  | .hbm, ⟨3, _⟩ => ⟨S4096, .i32⟩
  | .hbm, ⟨4, _⟩ => ⟨S1x4096, .i32⟩
  | .hbm, ⟨5, _⟩ => ⟨S32x1, .i32⟩
  | .hbm, ⟨6, _⟩ => ⟨S32x4096, .i32⟩
  | .hbm, ⟨7, _⟩ => ⟨S32x4096, .i32⟩
  | .hbm, ⟨8, _⟩ => ⟨S32x4096, .i1⟩
  | .hbm, ⟨9, _⟩ => ⟨S32x4096, .f32⟩
  | .hbm, ⟨10, _⟩ => ⟨S32x4096x1, .f32⟩
  | .hbm, ⟨11, _⟩ => ⟨S32x4096x512, .f32⟩
  | .hbm, ⟨12, _⟩ => ⟨S32x4096x512, .f32⟩
  | .hbm, ⟨13, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S32_S32x1_0 : S32.BroadcastsInDim S32x1 (![0] : Fin 1 → Fin S32x1.rank)
  bcast_S1x4096_S32x4096_0_1 : S1x4096.BroadcastsInDim S32x4096 (![0, 1] : Fin 2 → Fin S32x4096.rank)
  bcast_S32x1_S32x4096_0_1 : S32x1.BroadcastsInDim S32x4096 (![0, 1] : Fin 2 → Fin S32x4096.rank)
  bcast_S32x4096_S32x4096x1_0_1 : S32x4096.BroadcastsInDim S32x4096x1 (![0, 1] : Fin 2 → Fin S32x4096x1.rank)
  bcast_S32x4096x1_S32x4096x512_0_1_2 : S32x4096x1.BroadcastsInDim S32x4096x512 (![0, 1, 2] : Fin 3 → Fin S32x4096x512.rank)
  dot_S32x4096x512_S32x512x512_S32x4096x512_2_1_1_2_0_0_wf : DotDims.WF S32x4096x512 S32x512x512 S32x4096x512 [2] [1] [1] [2] [0] [0]

variable [Facts₀]

def dot_S32x4096x512_S32x512x512_S32x4096x512_2_1_1_2_0_0 : DotDims S32x4096x512 S32x512x512 S32x4096x512 where
  lhsContracting := [2]
  rhsContracting := [1]
  lhsNonContracting := [1]
  rhsNonContracting := [2]
  lhsBatch := [0]
  rhsBatch := [0]
  wf := dot_S32x4096x512_S32x512x512_S32x4096x512_2_1_1_2_0_0_wf

class Facts : Prop extends Facts₀ where

variable [Facts]
-- ==== Proof.Spec.lean ====
/-
  The ragged batched product, as one function of the three argument arrays.

  For batch b, row l and column k the result is Σ_κ (x[b,l,κ] · mask(b,l)) · w[b,κ,k], where mask(b,l) is 1 when the
  row number l, as a 32-bit word, is below the batch's length word lengths[b] in the signed order, and 0 otherwise.
  Both programs are shown to compute this function; no law of the extended reals beyond reading each side at an
  index is needed, so finiteness of the inputs is never used.
-/
import Idealize.ShloMosaic.PureOps.Ideal
import Idealize.ShloMosaic.Lib.ValueIdx

noncomputable section

open scoped BigOperators

namespace Cert.Ragged

open Idealize.ShloMosaic Idealize.ShloMosaic.ValueIdx

/-- The shapes of the data, of the lengths and of the weights. -/
abbrev SX : Shape := ⟨3, ![32, 4096, 512]⟩
abbrev SLen : Shape := ⟨1, ![32]⟩
abbrev SW : Shape := ⟨3, ![32, 512, 512]⟩

/-- The mask of row `l` under the length word `len`: the bit "l < len" (signed, on 32-bit words) as a number. -/
def rowMask (len : BitVec 32) (l : Nat) : EReal :=
  (((IntOp.cmpi .slt (BitVec.ofNat 32 l) len).toNat : ℝ) : EReal)

/-- The masked data: row l of batch b is kept when l is below the batch's length and zeroed otherwise. -/
def masked (x : SX.Idx → EReal) (len : SLen.Idx → BitVec 32) (b : Fin 32) (l : Fin 4096) (κ : Fin 512) : EReal :=
  x (ix3 b l κ) * rowMask (len (ix1 b)) l.val

/-- THE RESULT: each batch's masked rows times that batch's weight matrix. -/
def result (x : SX.Idx → EReal) (len : SLen.Idx → BitVec 32) (w : SW.Idx → EReal) : SX.Idx → EReal :=
  fun i => ∑ κ : Fin 512, masked x len (i 0) (i 1) κ * w (ix3 (i 0) κ (i 2))

end Cert.Ragged

end
-- ==== Proof.RefValue.lean ====
/-
  The reference computes the ragged batched product of Spec.lean.

  The reference builds the mask as a [32, 4096] array (a row iota compared with the broadcast lengths, converted to a
  float), broadcasts it over the columns, multiplies the data by it and contracts the last axis of the product with
  the middle axis of the weights, batch by batch. Read at an index (b, l, k) this is Σ_κ (x[b,l,κ] · mask(b,l)) ·
  w[b,κ,k]: every broadcast reads its operand at the obvious coordinates, and the bit converted unsigned is the
  mask's number.
-/
import proofs.«411605_j62706522522095_1_alg».proof.Defs
import proofs.«411605_j62706522522095_1_alg».proof.Proof.Gen.ReferenceIdeal.Run
import proofs.«411605_j62706522522095_1_alg».proof.Proof.Gen.ReferenceIdeal.Read
import proofs.«411605_j62706522522095_1_alg».proof.Proof.Spec

noncomputable section

open scoped BigOperators

namespace Cert.ReferenceIdeal.RefValue

open Cert.ReferenceIdeal Cert.ReferenceIdeal.Read Cert.Ragged
open Idealize.ShloMosaic Idealize.ShloMosaic.ValueIdx

/-- At result index (b, l, k) and contraction coordinate κ the left operand of the product is read at (b, l, κ), -/
theorem lidx_eq (b : Fin 32) (l : Fin 4096) (k κ : Fin 512) : lidx_main_v10 (ix3 b l k) κ = ix3 b l κ :=
  funext fun a => Fin.ext (by match a with | ⟨0, _⟩ => rfl | ⟨1, _⟩ => rfl | ⟨2, _⟩ => rfl)
/-- the right one at (b, κ, k), -/
theorem ridx_eq (b : Fin 32) (l : Fin 4096) (k κ : Fin 512) : ridx_main_v10 (ix3 b l k) κ = ix3 b κ k :=
  funext fun a => Fin.ext (by match a with | ⟨0, _⟩ => rfl | ⟨1, _⟩ => rfl | ⟨2, _⟩ => rfl)
/-- and the lengths, through the chain of broadcasts, at b. -/
theorem lenidx_eq (b : Fin 32) (l : Fin 4096) (κ : Fin 512) :
    idx_main_v2 (idx_main_v4 (idx_main_v7 (idx_main_v8 (ix3 b l κ)))) = ix1 b :=
  funext fun a => Fin.ext (by match a with | ⟨0, _⟩ => rfl)

/-- The broadcast mask at (b, l, κ) is the mask of row l under batch b's length. -/
theorem mask_apply (x1 : S32.Idx → BitVec 32) (b : Fin 32) (l : Fin 4096) (κ : Fin 512) :
    val_main_v8 (F := Ideal) x1 (ix3 b l κ) = rowMask (x1 (ix1 b)) l.val := by
  rw [val_main_v8_apply, val_main_v7_apply, val_main_v6_apply, val_main_v5_apply, val_main_v3_apply, val_main_v1_apply,
    val_main_v0_apply, val_main_v4_apply, val_main_v2_apply, lenidx_eq]
  rfl

/-- THE REFERENCE'S RESULT is the ragged batched product. -/
theorem ref_eq (x0 : S32x4096x512.Idx → EReal) (x1 : S32.Idx → BitVec 32) (x2 : S32x512x512.Idx → EReal) :
    val_main_v10 (F := Ideal) x0 x1 x2 = result x0 x1 x2 := by
  funext i
  obtain ⟨b, l, k, rfl⟩ : ∃ (b : Fin 32) (l : Fin 4096) (k : Fin 512), i = ix3 b l k := ⟨i 0, i 1, i 2, eq_ix3 i⟩
  rw [val_main_v10_apply]
  show _ = ∑ κ : Fin 512, masked x0 x1 b l κ * x2 (ix3 b κ k)
  refine Finset.sum_congr rfl fun κ _ => ?_
  rw [lidx_eq, ridx_eq, val_main_v9_apply, mask_apply]
  rfl

end Cert.ReferenceIdeal.RefValue

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Payload.lean ====
/-
  What the kernel body stores at one grid point, read at an index.

  At grid point (b, h) the body loads a [1, 2048, 512] block X of the data and the [1, 512, 512] weight matrix W of
  batch b, reads the batch's length word, multiplies row r of X by the bit "h · 2048 + r < length" (built from a row
  iota, widened to a word and converted), and stores the matrix product with W. At (0, r, k) the stored value is
  Σ_κ (X[0,r,κ] · mask) · W[0,κ,k], the mask being that of absolute row h · 2048 + r: the changes of float format
  are the identity on extended reals, the product into a zero accumulator is the plain sum, and the word
  arithmetic h · 2048 + r is exact on 32-bit words.
-/
import proofs.«411605_j62706522522095_1_alg».proof.Proof.Gen.KernelIdeal.Skeleton
import proofs.«411605_j62706522522095_1_alg».proof.Proof.Spec
import proofs.«411605_j62706522522095_1_alg».proof.Proof.LibDot
import Idealize.ShloMosaic.Lib.Pipeline.Value
import Idealize.ShloMosaic.Lib.KernelVsHost

set_option maxRecDepth 16384

noncomputable section

open scoped BigOperators

namespace Cert.KernelIdeal.Payload

open Cert.KernelIdeal Cert.KernelIdeal.Gen Cert.Ragged
open Idealize.ShloMosaic Idealize.ShloMosaic.ValueIdx

/-- The row number of block-row r in the h-th block of 2048 rows, as a 32-bit word, is the word of h · 2048 + r. -/
theorem row_word (h r : Nat) :
    IntOp.addi (Scalar.muli (BitVec.ofNat 32 h) 2048#32) (BitVec.ofNat 32 r) = BitVec.ofNat 32 (h * 2048 + r) := by
  show BitVec.ofNat 32 h * 2048#32 + BitVec.ofNat 32 r = _
  apply BitVec.eq_of_toNat_eq
  simp only [BitVec.toNat_add, BitVec.toNat_mul, BitVec.toNat_ofNat]
  omega

/-- The body's mask column at block-row r is the mask of absolute row h · 2048 + r under the length word. -/
theorem mask_col (h : Nat) (len : BitVec 32) (r : Fin 2048) :
    (sitofp (F := Ideal) .f32
      (extui 32
        (cmpi .slt
          (addi (broadcast S2048x1 (Scalar.muli (BitVec.ofNat 32 h) 2048#32)) (iota .tc S2048x1 32 [0] Facts₀.iota_S2048x1_d0_w32))
          (broadcast S2048x1 len))
        Facts₀.natLt_1_32)) (ix2 r (0 : Fin 1))
      = rowMask len (h * 2048 + r.val) := by
  show ((((IntOp.cmpi .slt
      (IntOp.addi (Scalar.muli (BitVec.ofNat 32 h) 2048#32) (iota .tc S2048x1 32 [0] Facts₀.iota_S2048x1_d0_w32 (ix2 r (0 : Fin 1)))) len).setWidth 32).toInt : ℝ) : EReal) = _
  rw [toInt_setWidth_bit, iota_single_apply]
  show ((((IntOp.cmpi .slt (IntOp.addi (Scalar.muli (BitVec.ofNat 32 h) 2048#32) (BitVec.ofNat 32 r.val)) len).toNat : ℤ) : ℝ) : EReal) = _
  rw [row_word]
  unfold rowMask
  norm_cast

/-- A [1, 2048, 512] block viewed as a [2048, 512] matrix reads (0, r, κ) at (r, κ), -/
theorem dropX (v : Vec Ideal S1x2048x512 .f32) (r : Fin 2048) (κ : Fin 512) :
    shapeCast S2048x512 v Facts₀.shapeCasts_S1x2048x512_S2048x512 (ix2 r κ) = v (ix3 (0 : Fin 1) r κ) := by
  refine (shapeCast_dropUnit_apply ![2048, 512] v _ (ix2 r κ)).trans ?_
  exact congrArg v (funext fun a => by match a with | ⟨0, _⟩ => rfl | ⟨1, _⟩ => rfl | ⟨2, _⟩ => rfl)

/-- and the [1, 512, 512] weight block viewed as a [512, 512] matrix reads (0, κ, k) at (κ, k). -/
theorem dropW (v : Vec Ideal S1x512x512 .f32) (κ k : Fin 512) :
    shapeCast S512x512 v Facts₀.shapeCasts_S1x512x512_S512x512 (ix2 κ k) = v (ix3 (0 : Fin 1) κ k) := by
  refine (shapeCast_dropUnit_apply ![512, 512] v _ (ix2 κ k)).trans ?_
  exact congrArg v (funext fun a => by match a with | ⟨0, _⟩ => rfl | ⟨1, _⟩ => rfl | ⟨2, _⟩ => rfl)

/-- A [2048, 1] column laid along the 512 columns reads its row's entry. -/
theorem colBroadcast (v : FVec Ideal S2048x1 .f32) (r : Fin 2048) (κ : Fin 512) :
    broadcastTo S2048x512 v Facts₀.broadcasts_S2048x1_S2048x512 (ix2 r κ) = v (ix2 r (0 : Fin 1)) :=
  broadcastTo_apply v _ (ix2 r κ) (ix2 r (0 : Fin 1)) (fun a => by
    match a with
    | ⟨0, _⟩ => show r.val = if (2048 : Nat) = 1 then 0 else r.val; rw [if_neg (by decide)]
    | ⟨1, _⟩ => show 0 = if (1 : Nat) = 1 then 0 else κ.val; rw [if_pos rfl])

/-- The block product into a zero accumulator, at (r, k), is Σ_κ A (r, κ) · B (κ, k). -/
theorem prod_apply (A : FVec Ideal S2048x512 .bf16) (B : FVec Ideal S512x512 .bf16) (r : Fin 2048) (k : Fin 512) :
    matmul dot_S2048x512_S512x512_S2048x512_1_0_0_1_n_n none A B (constant S2048x512 .f32 0x00000000#32) (ix2 r k)
      = ∑ κ : Fin 512, A (ix2 r κ) * B (ix2 κ k) := by
  show FloatOps.matmul _ none A B _ (ix2 r k) = _
  rw [Ideal.matmul_constant_zero_apply]
  exact Cert.LibDot.contr_sum_rows _ rfl rfl rfl rfl rfl rfl A B r k

/-- (0, r, k) without its leading unit coordinate is (r, k). -/
theorem tail_ix3 (r : Fin 2048) (k : Fin 512) :
    (fun a : Fin 2 => (ix3 (0 : Fin 1) r k : S1x2048x512.Idx) a.succ) = (ix2 r k : S2048x512.Idx) :=
  funext fun a => by match a with | ⟨0, _⟩ => rfl | ⟨1, _⟩ => rfl

/-- THE STORED VALUE at (0, r, k): the masked rows of the data block times the weight block. `h` is the grid's second
    coordinate, `len` the length word the body read. -/
theorem pay_apply (i : grid0.Coords) (len : BitVec 32) (X : Vec Ideal S1x2048x512 .f32) (W : Vec Ideal S1x512x512 .f32)
    (r : Fin 2048) (k : Fin 512) :
    k0_pay1 (F := Ideal) i len X W (ix3 (0 : Fin 1) r k)
      = ∑ κ : Fin 512, (X (ix3 (0 : Fin 1) r κ) * rowMask len ((i 1).val * 2048 + r.val)) * W (ix3 (0 : Fin 1) κ k) := by
  unfold k0_pay1
  dsimp only
  refine (shapeCast_addUnit_apply ![2048, 512] _ Facts₀.shapeCasts_S2048x512_S1x2048x512 (ix3 (0 : Fin 1) r k)).trans ?_
  refine (congrArg _ (tail_ix3 r k)).trans ?_
  refine (prod_apply _ _ r k).trans ?_
  refine Finset.sum_congr rfl fun κ _ => ?_
  show (shapeCast S2048x512 X _ (ix2 r κ) * broadcastTo S2048x512 _ _ (ix2 r κ)) * shapeCast S512x512 W _ (ix2 κ k) = _
  rw [dropX, dropW, colBroadcast, mask_col]

end Cert.KernelIdeal.Payload

end
-- ==== Proof.KernelValue.lean ====
/-
  The array the kernel leaves is the ragged batched product of Spec.lean.

  The grid has 32 × 2 points; point (b, h) works on rows h · 2048 … h · 2048 + 2047 of batch b. Its data block is
  the data array read at (b, h · 2048 + r, κ), its weight block the weight array at (b, κ, k), the length word the
  body reads is lengths[b], and what it writes back goes to (b, h · 2048 + r, k) of the result. With the stored
  value of Payload.lean this makes every written block the corresponding block of the one whole-array function
  `result`; the 64 blocks tile the result array (row l of batch b belongs to point (b, l / 2048)), so the array
  ends holding `result` of the arguments.
-/
import proofs.«411605_j62706522522095_1_alg».proof.Defs
import proofs.«411605_j62706522522095_1_alg».proof.Proof.Gen.KernelIdeal.Frame
import proofs.«411605_j62706522522095_1_alg».proof.Proof.Payload
import Idealize.ShloMosaic.Lib.Pipeline.Value

set_option maxRecDepth 16384

noncomputable section

open scoped BigOperators

namespace Cert.KernelIdeal.KernelValue

open Cert.KernelIdeal Cert.KernelIdeal.Gen Cert.KernelIdeal.Payload Cert.Ragged
open Idealize.ShloMosaic Idealize.ShloMosaic.TcCoe Idealize.ShloMosaic.Tactic Idealize.SL.Sem Idealize.ShloMosaic.ValueIdx
open Idealize.ShloMosaic.Pipeline (Dat)

/-! ## One grid point's stored block -/

theorem hz : (![0, 0, 0] : Fin 3 → Nat) = fun _ => 0 := funext fun a => by fin_cases a <;> rfl

/-- A grid point's batch, and which half of the batch's rows it works on. -/
abbrev bat (i : grid0.Coords) : Fin 32 := i 0
abbrev half (i : grid0.Coords) : Fin 2 := i 1

/-- The absolute row of block-row r at a grid point. -/
def absRow (i : grid0.Coords) (r : Fin 2048) : Fin 4096 :=
  ⟨(half i).val * 2048 + r.val, by have := (half i).isLt; have := r.isLt; omega⟩

/-- The offset at which the body reads the table of lengths is the point's batch: the batch number fits a word. -/
theorem off_eq (i : grid0.Coords) : k0_off1 i 0 = (bat i).val := by
  show (BitVec.ofNat 32 (i 0).val).toNat = (i 0).val
  have hb : (i 0).val < 32 := (i 0).isLt
  rw [BitVec.toNat_ofNat]
  omega

/-- The word read from the table of lengths at offset b is lengths[b]. -/
theorem word_eq (c : Dev nD) (xt0 : TbBuf0 (F := Ideal) c tbM0_0) (b : Fin 32) (off : Fin 1 → Nat) (hoff : off 0 = b.val)
    (inb : ∀ a, off a + S1.size a ≤ S32.size a) (h1 : 0 < S1.numel) :
    tbM0_0.view.readAt (Elt Ideal) (Rect.unit (s := S32) off S1.size inb).toLoadRect xt0 (Shape.Idx.first h1) = xt0 (ix1 b) := by
  rw [View.readAt_eq_ld]
  show xt0 ((Rect.unit (s := S32) off S1.size inb).idx (Shape.Idx.first h1)) = _
  refine congrArg xt0 (funext fun a => Fin.ext ?_)
  match a with
  | ⟨0, _⟩ =>
    show off 0 + 1 * 0 = b.val
    omega

/-- WHAT THE BODY LEAVES in the output's staging buffer, on any staging buffers holding a data block X, a weight
    block W and the table of lengths: the stored value of Payload.lean at the point's length word. -/
theorem piece_eq (c : Dev nD) (i : grid0.Coords) (arg3 : Memref sig .tc .vmem S1x2048x512 .f32) (harg3 : arg3.IsWhole)
    (arg4 : Memref sig .tc .vmem S1x512x512 .f32) (harg4 : arg4.IsWhole) (arg5 : Memref sig .tc .vmem S1x2048x512 .f32) (harg5 : arg5.IsWhole)
    (X : Vec Ideal S1x2048x512 .f32) (W : Vec Ideal S1x512x512 .f32) (xt0 : TbBuf0 (F := Ideal) c tbM0_0) :
    out0_A_2 c i arg3 harg3 arg4 harg4 arg5 harg5 X W xt0 = k0_pay1 i (xt0 (ix1 (bat i))) X W := by
  unfold out0_A_2
  rw [View.read_writes_eq_canon _ _ _ (cover0_A_2 c i arg3 harg3 arg4 harg4 arg5 harg5 X W xt0)]
  unfold kernelRun0_A
  dsimp only
  sl_unfold_words
  rw [View.canon_unit_zero hz]
  have congr3 : ∀ (w w' : BitVec 32) (a a' : Vec Ideal S1x2048x512 .f32) (b b' : Vec Ideal S1x512x512 .f32),
      w = w' → a = a' → b = b' → k0_pay1 (F := Ideal) i w a b = k0_pay1 i w' a' b' := by
    intro w w' a a' b b' hw ha hb; rw [hw, ha, hb]
  refine congr3 _ _ _ _ _ _ (word_eq c xt0 (bat i) _ (by exact off_eq i) _ _) ?_ ?_
  · rw [View.readAt_eq_ld, Memref.IsWhole.read_unread, View.ld_unit_zero (S := S1x2048x512) hz]
  · rw [View.readAt_eq_ld, Memref.IsWhole.read_unread, View.ld_unit_zero (S := S1x512x512) hz]

/-! ## The blocks of the arrays -/

/-- A number below 32 fits a word. -/
theorem word_val (n : Nat) (h : n < 32) : (BitVec.ofNat 32 n).toNat = n := by
  rw [BitVec.toNat_ofNat]; omega

/-- The block indices the index maps give at a grid point (b, h): the data's and the result's block is (b, h, 0),
    the weights' (b, 0, 0). -/
theorem ixX (i : grid0.Coords) : cc0_transform_0 i 0 = (i 0).val ∧ cc0_transform_0 i 1 = (i 1).val ∧ cc0_transform_0 i 2 = 0 :=
  ⟨word_val _ (i 0).isLt, word_val _ (Nat.lt_trans (i 1).isLt (by decide)), rfl⟩
theorem ixW (i : grid0.Coords) : cc0_transform_1 i 0 = (i 0).val ∧ cc0_transform_1 i 1 = 0 ∧ cc0_transform_1 i 2 = 0 :=
  ⟨word_val _ (i 0).isLt, rfl, rfl⟩
theorem ixO (i : grid0.Coords) : cc0_transform_2 i 0 = (i 0).val ∧ cc0_transform_2 i 1 = (i 1).val ∧ cc0_transform_2 i 2 = 0 :=
  ⟨word_val _ (i 0).isLt, word_val _ (Nat.lt_trans (i 1).isLt (by decide)), rfl⟩

variable (m : (ℓ : Loc nD τ sig) → Buf (Elt Ideal) ℓ) (ρ : Dev nD → PrngReg)

/-- The three argument arrays as the region finds them, and the blocks the pipeline hands the body at a point. -/
abbrev xarr (c : Dev nD) : S32x4096x512.Idx → EReal := V m c main_arg0
abbrev warr (c : Dev nD) : S32x512x512.Idx → EReal := V m c main_arg2
abbrev lens : S32.Idx → BitVec 32 := tbl m 0
abbrev xblk (hO : Ok m) (c : Dev nD) (t : Fin (cfgM m hO).N) : Vec Ideal S1x2048x512 .f32 := iblk m hO c 0 t
abbrev wblk (hO : Ok m) (c : Dev nD) (t : Fin (cfgM m hO).N) : Vec Ideal S1x512x512 .f32 := iblk m hO c 1 t

/-- Entry (0, r, k) of the result's block at point (b, h) is entry (b, h · 2048 + r, k) of the result array, -/
theorem emb_out (hO : Ok m) (t : Fin (cfgM m hO).N) (r : Fin 2048) (k : Fin 512) :
    (((cfgM m hO).win 2).blk t).view.emb (ix3 (0 : Fin 1) r k : S1x2048x512.Idx)
      = (ix3 (bat (grid0.coords t)) (absRow (grid0.coords t) r) k : S32x4096x512.Idx) := by
  obtain ⟨e0, e1, e2⟩ := ixO (grid0.coords t)
  refine funext fun (a : Fin 3) => Fin.ext ?_
  match a with
  | ⟨0, _⟩ => show cc0_transform_2 (grid0.coords t) 0 * 1 + 1 * 0 = (grid0.coords t 0).val; omega
  | ⟨1, _⟩ => show cc0_transform_2 (grid0.coords t) 1 * 2048 + 1 * r.val = (grid0.coords t 1).val * 2048 + r.val; omega
  | ⟨2, _⟩ => show cc0_transform_2 (grid0.coords t) 2 * 512 + 1 * k.val = k.val; omega

/-- entry (0, r, κ) of the data's block is entry (b, h · 2048 + r, κ) of the data, -/
theorem emb_x (hO : Ok m) (t : Fin (cfgM m hO).N) (r : Fin 2048) (κ : Fin 512) :
    (((cfgM m hO).win 0).blk t).view.emb (ix3 (0 : Fin 1) r κ : S1x2048x512.Idx)
      = (ix3 (bat (grid0.coords t)) (absRow (grid0.coords t) r) κ : S32x4096x512.Idx) := by
  obtain ⟨e0, e1, e2⟩ := ixX (grid0.coords t)
  refine funext fun (a : Fin 3) => Fin.ext ?_
  match a with
  | ⟨0, _⟩ => show cc0_transform_0 (grid0.coords t) 0 * 1 + 1 * 0 = (grid0.coords t 0).val; omega
  | ⟨1, _⟩ => show cc0_transform_0 (grid0.coords t) 1 * 2048 + 1 * r.val = (grid0.coords t 1).val * 2048 + r.val; omega
  | ⟨2, _⟩ => show cc0_transform_0 (grid0.coords t) 2 * 512 + 1 * κ.val = κ.val; omega

/-- and entry (0, κ, k) of the weights' block is entry (b, κ, k) of the weights. -/
theorem emb_w (hO : Ok m) (t : Fin (cfgM m hO).N) (κ k : Fin 512) :
    (((cfgM m hO).win 1).blk t).view.emb (ix3 (0 : Fin 1) κ k : S1x512x512.Idx)
      = (ix3 (bat (grid0.coords t)) κ k : S32x512x512.Idx) := by
  obtain ⟨e0, e1, e2⟩ := ixW (grid0.coords t)
  refine funext fun (a : Fin 3) => Fin.ext ?_
  match a with
  | ⟨0, _⟩ => show cc0_transform_1 (grid0.coords t) 0 * 1 + 1 * 0 = (grid0.coords t 0).val; omega
  | ⟨1, _⟩ => show cc0_transform_1 (grid0.coords t) 1 * 512 + 1 * κ.val = κ.val; omega
  | ⟨2, _⟩ => show cc0_transform_1 (grid0.coords t) 2 * 512 + 1 * k.val = k.val; omega

/-- The data block and the weight block, read at an entry, are the arrays read there. -/
theorem xblk_apply (hO : Ok m) (c : Dev nD) (t : Fin (cfgM m hO).N) (r : Fin 2048) (κ : Fin 512) :
    xblk m hO c t (ix3 (0 : Fin 1) r κ) = xarr m c (ix3 (bat (grid0.coords t)) (absRow (grid0.coords t) r) κ) := by
  show V m c main_arg0 ((((cfgM m hO).win 0).blk t).view.emb (ix3 (0 : Fin 1) r κ : S1x2048x512.Idx)) = _
  rw [emb_x]
theorem wblk_apply (hO : Ok m) (c : Dev nD) (t : Fin (cfgM m hO).N) (κ k : Fin 512) :
    wblk m hO c t (ix3 (0 : Fin 1) κ k) = warr m c (ix3 (bat (grid0.coords t)) κ k) := by
  show V m c main_arg2 ((((cfgM m hO).win 1).blk t).view.emb (ix3 (0 : Fin 1) κ k : S1x512x512.Idx)) = _
  rw [emb_w]

/-! ## What a point writes back, and the array after the run -/

/-- WHAT POINT `t` WRITES BACK is block `t` of the ragged batched product of the argument arrays. -/
theorem flushed_eq (hO : Ok m) (c : Dev nD) (t : Fin (cfgM m hO).N) :
    (dats m hO 0 c).flushed 2 t = (((cfgM m hO).win 2).blk t).view.read (Elt Ideal) (result (xarr m c) (lens m) (warr m c)) := by
  show ((cfgM m hO).win 2).cut (grid0.coords t) ((dats m hO 0 c).after 2 t) = _
  rw [after0_2]
  unfold outsAt0
  refine funext fun (j : S1x2048x512.Idx) => ?_
  obtain ⟨z, r, k, rfl⟩ : ∃ (z : Fin 1) (r : Fin 2048) (k : Fin 512), j = ix3 z r k := ⟨j 0, j 1, j 2, eq_ix3 j⟩
  obtain rfl : z = 0 := Subsingleton.elim _ _
  refine (congrFun (piece_eq c (grid0.coords t) (ms0_0 m hO t) (hs0_0 m hO t) (ms0_1 m hO t) (hs0_1 m hO t) (ms0_2 m hO t) (hs0_2 m hO t) (xblk m hO c t) (wblk m hO c t) (tbl m 0)) (ix3 (0 : Fin 1) r k)).trans ?_
  refine (pay_apply (grid0.coords t) _ (xblk m hO c t) (wblk m hO c t) r k).trans ?_
  show _ = result (xarr m c) (lens m) (warr m c) ((((cfgM m hO).win 2).blk t).view.emb (ix3 (0 : Fin 1) r k : S1x2048x512.Idx))
  rw [emb_out]
  show _ = ∑ κ : Fin 512, masked (xarr m c) (lens m) (bat (grid0.coords t)) (absRow (grid0.coords t) r) κ
      * warr m c (ix3 (bat (grid0.coords t)) κ k)
  refine Finset.sum_congr rfl fun κ _ => ?_
  rw [xblk_apply, wblk_apply]
  rfl

/-- Every pair (batch, half) is some grid point's coordinates. -/
theorem point_of : ∀ (b : Fin 32) (h : Fin 2), ∃ t : Fin grid0.N, (grid0.coords t 0).val = b.val ∧ (grid0.coords t 1).val = h.val := by
  decide +kernel

/-- THE BLOCKS TILE THE RESULT: entry (b, l, k) is entry (0, l mod 2048, k) of the block written by the point
    (b, l / 2048). -/
theorem cover (hO : Ok m) (i : S32x4096x512.Idx) :
    ∃ t : Fin (cfgM m hO).N, ((cfgM m hO).win 2).flush t = true ∧ i ∈ (((cfgM m hO).win 2).blk t).view.set := by
  obtain ⟨b, l, k, rfl⟩ : ∃ (b : Fin 32) (l : Fin 4096) (k : Fin 512), i = ix3 b l k := ⟨i 0, i 1, i 2, eq_ix3 i⟩
  have hl : l.val < 4096 := l.isLt
  obtain ⟨t, h0, h1⟩ := point_of b ⟨l.val / 2048, by omega⟩
  refine ⟨t, flush0_2 (adm m hO) t, ?_⟩
  have hb : bat (grid0.coords t) = b := Fin.ext h0
  have hr : absRow (grid0.coords t) (⟨l.val % 2048, Nat.mod_lt _ (by decide)⟩ : Fin 2048) = l := Fin.ext (by
    show (grid0.coords t 1).val * 2048 + l.val % 2048 = l.val
    have h1' : (grid0.coords t 1).val = l.val / 2048 := h1
    omega)
  have e := emb_out m hO t (⟨l.val % 2048, Nat.mod_lt _ (by decide)⟩ : Fin 2048) k
  rw [hb, hr] at e
  rw [← e]
  exact View.emb_mem_set _ _

/-- THE RESULT ARRAY after the run is the ragged batched product of the argument arrays. -/
theorem final (hO : Ok m) (c : Dev nD) :
    (dats m hO 0 c).arrAt 2 (cfgM m hO).N = result (xarr m c) (lens m) (warr m c) :=
  (dats m hO 0 c).arrAt_eq_of_cover 2 (result (xarr m c) (lens m) (warr m c)) (fun t _ => flushed_eq m hO c t) (cover m hO)

/-- The table of lengths the pipeline reads is the lengths argument. -/
theorem lens_eq : lens m = m (((0 : Dev nD).tc : Thread nD τ).loc main_arg1) := rfl

/-- THE KERNEL'S RUN with its result named: every weakly fair execution terminates with the result array at the
    ragged batched product of the arguments, the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hO : Ok m := trivial
  refine (θ_run defs _ _).mono (fun r h c => ?_) (run_main m ρ hO)
  obtain rfl : c = 0 := Subsingleton.elim _ _
  exact ⟨((h 0).1 2).trans (final m hO 0),
    ((h 0).1 0).trans ((dats m hO 0 0).arrAt_in 0 rfl _),
    (h 0).2 main_arg1 (by decide : main_arg1 ∈ Pipeline.restRefs sig spec0),
    ((h 0).1 1).trans ((dats m hO 0 0).arrAt_in 1 rfl _)⟩

end Cert.KernelIdeal.KernelValue

end
-- ==== Proof.lean ====
/-
  The ragged batched matrix product: for each batch b, the rows of x[b] below lengths[b] times the weight matrix
  w[b], the rows from lengths[b] on zeroed. The kernel computes it block by block on a 32 × 2 grid (one batch and
  one half of its 4096 rows per point), the reference as one masked batched contraction.

  Both idealized programs end with the result array at ONE function of the three arguments
  (Proof/Spec.lean, `Cert.Ragged.result`): entry (b, l, k) is Σ_κ (x[b,l,κ] · mask(b,l)) · w[b,κ,k] with mask(b,l)
  the bit "l < lengths[b]" (signed 32-bit words) as a number. The kernel's side is Proof/Payload.lean (what one
  point stores) and Proof/KernelValue.lean (the blocks tile the array); the reference's is Proof/RefValue.lean.
  Neither side needs a law of the extended reals beyond reading its operations at an index, so the finiteness of
  the inputs is not used. The index maps of the kernel's windows do not read the table of lengths, so the
  pipeline's side condition on the table is trivially true and the frames hold for every table. No operation was
  rewritten in idealizing the kernel, so there is nothing to preserve.
-/
import proofs.«411605_j62706522522095_1_alg».proof.Defs
import proofs.«411605_j62706522522095_1_alg».proof.Proof.Gen.Kernel
import proofs.«411605_j62706522522095_1_alg».proof.Proof.Gen.Kernel.Skeleton
import proofs.«411605_j62706522522095_1_alg».proof.Proof.Gen.Kernel.Launch
import proofs.«411605_j62706522522095_1_alg».proof.Proof.Gen.Kernel.Points
import proofs.«411605_j62706522522095_1_alg».proof.Proof.Gen.Kernel.Frame
import proofs.«411605_j62706522522095_1_alg».proof.Proof.Gen.KernelIdeal
import proofs.«411605_j62706522522095_1_alg».proof.Proof.Gen.KernelIdeal.Skeleton
import proofs.«411605_j62706522522095_1_alg».proof.Proof.Gen.KernelIdeal.Launch
import proofs.«411605_j62706522522095_1_alg».proof.Proof.Gen.KernelIdeal.Points
import proofs.«411605_j62706522522095_1_alg».proof.Proof.Gen.KernelIdeal.Frame
import proofs.«411605_j62706522522095_1_alg».proof.Proof.Gen.ReferenceIdeal
import proofs.«411605_j62706522522095_1_alg».proof.Proof.Gen.ReferenceIdeal.Run
import proofs.«411605_j62706522522095_1_alg».proof.Proof.Gen.ReferenceIdeal.Read
import proofs.«411605_j62706522522095_1_alg».proof.Proof.Gen.Pre_finite_inputs
import proofs.«411605_j62706522522095_1_alg».proof.Proof.RefValue
import proofs.«411605_j62706522522095_1_alg».proof.Proof.KernelValue
import Idealize.ShloMosaic.Adequacy
import Idealize.ShloMosaic.Init

noncomputable section

namespace Cert.Proof

open Idealize.ShloMosaic Idealize.SL.Sem

/-- The kernel as printed runs and leaves its arguments alone, for every table of lengths. -/
theorem frame_k : Cert.frame_Kernel := fun m ρ _ => Cert.Kernel.Gen.frame m ρ trivial

/-- So does its idealization. -/
theorem frame_ki : Cert.frame_KernelIdeal := fun m ρ _ => Cert.KernelIdeal.Gen.frame m ρ trivial

/-- The reference runs and leaves its arguments alone: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the result at the ragged batched
    product of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
